-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S32x4096x12 : S_.BroadcastsInDim S32x4096x12 (![] : Fin 0 → Fin S32x4096x12.rank)
  reducesTo_S32x4096x12_S_d0_1_2 : S32x4096x12.ReducesTo [0, 1, 2] S_
  h_S_ : 0 < S_.numel
  bcast_S_S12x256 : S_.BroadcastsInDim S12x256 (![] : Fin 0 → Fin S12x256.rank)
  reducesTo_S12x256_S_d0_1 : S12x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x4096x12 .f32) (main_arg1 : FVec F S12x256 .f32) (main_arg2 : FVec F S256 .f32) (main_arg3 : FVec F S256x128 .f32) (main_arg4 : FVec F S128 .f32) : IVec S_ 1 :=
  let main_v0 : FVec F S32x4096x12 .f32 := Host.absf main_arg0
  let main_cst : FVec F S_ .f32 := constant S_ .f32 0x7F800000#32
  let main_v1 : FVec F S32x4096x12 .f32 := broadcastInDim S32x4096x12 ![] bcast_S_S32x4096x12 main_cst
  let main_v2 : IVec S32x4096x12 1 := cmpf .olt main_v0 main_v1
  let main_c : IVec S_ 1 := constantI S_ 1 1#1
  let main_v3 : IVec S_ 1 := (fun x v => Host.reduce IntOp.andi x v reducesTo_S32x4096x12_S_d0_1_2 h_S_) main_v2 main_c
  let main_v4 : FVec F S12x256 .f32 := Host.absf main_arg1
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S32x4096x128 : Shape := ⟨3, ![32, 4096, 128]⟩
abbrev S1x4096x12 : Shape := ⟨3, ![1, 4096, 12]⟩
abbrev S1x4096x128 : Shape := ⟨3, ![1, 4096, 128]⟩
abbrev S4096x12 : Shape := ⟨2, ![4096, 12]⟩
abbrev S12 : Shape := ⟨1, ![12]⟩
abbrev S1x12 : Shape := ⟨2, ![1, 12]⟩
abbrev S4096x128 : Shape := ⟨2, ![4096, 128]⟩

abbrev nBuf : Space → Nat
  | .hbm => 8
  | .vmem => 8
  | .smem => 0
  | _ => 0

abbrev bufTy : (tb : Table) → Fin (tcTables nBuf tb) → BufTy
  | .hbm, ⟨0, _⟩ => ⟨S32x4096x12, .f32⟩
  | .hbm, ⟨1, _⟩ => ⟨S12x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S1x256, .f32⟩
  | .hbm, ⟨6, _⟩ => ⟨S1x128, .f32⟩
  | .hbm, ⟨7, _⟩ => ⟨S32x4096x128, .f32⟩
  | .local _ .vmem, ⟨0, _⟩ => ⟨S1x4096x12, .f32⟩
  | .local _ .vmem, ⟨1, _⟩ => ⟨S1x4096x12, .f32⟩
  | .local _ .vmem, ⟨2, _⟩ => ⟨S12x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | _, _ => ⟨S32x4096x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S128_S1x128 : S128.ShapeCasts S1x128
  inb_S1x4096x12_S1x4096x12_0_0_0 : ∀ a, (![0, 0, 0] : Fin 3 → Nat) a + S1x4096x12.size a ≤ S1x4096x12.size a
  h_S1x4096x12 : 0 < S1x4096x12.numel
  shapeCasts_S1x4096x12_S4096x12 : S1x4096x12.ShapeCasts S4096x12
  reduces_S4096x12_S12 : S4096x12.Reduces [0] S12
  shapeCasts_S12_S1x12 : S12.ShapeCasts S1x12
  inb_S12x256_S12x256_0_0 : ∀ a, (![0, 0] : Fin 2 → Nat) a + S12x256.size a ≤ S12x256.size a
  h_S12x256 : 0 < S12x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S1x12_S12x256_S1x256_1_0_0_1_n_n_wf : DotDims.WF S1x12 S12x256 S1x256 [1] [0] [0] [1] [] []
  dot_S1x256_S256x128_S1x128_1_0_0_1_n_n_wf : DotDims.WF S1x256 S256x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x12.size a ≤ S32x4096x12.size a
  hwx0_0 : ∀ i : grid0.Coords, EltTy.bits .f32 = 32 ∨ (Rect.block (s := S32x4096x12) S1x4096x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x256.size a ≤ S12x256.size a
  hwx0_1 : ∀ i : grid0.Coords, EltTy.bits .f32 = 32 ∨ (Rect.block (s := S12x256) S12x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S32x4096x128.size a
  hwx0_5 : ∀ i : grid0.Coords, EltTy.bits .f32 = 32 ∨ (Rect.block (s := S32x4096x128) S1x4096x128.size (cc0_transform_5 i) (hinb0_5 i)).WholeWords (EltTy.packing .f32)

variable [Facts₀]

def dot_S1x12_S12x256_S1x256_1_0_0_1_n_n : DotDims S1x12 S12x256 S1x256 where
  lhsContracting := [1]
  rhsContracting := [0]
  lhsNonContracting := [0]
  rhsNonContracting := [1]
  lhsBatch := []
  rhsBatch := []
  wf := dot_S1x12_S12x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_arg0) S1x4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x12 : Shape := ⟨3, ![32, 4096, 12]⟩
abbrev S12x256 : Shape := ⟨2, ![12, 256]⟩
abbrev S256 : Shape := ⟨1, ![256]⟩
abbrev S256x128 : Shape := ⟨2, ![256, 128]⟩
abbrev S128 : Shape := ⟨1, ![128]⟩
abbrev S32x4096x256 : Shape := ⟨3, ![32, 4096, 256]⟩
abbrev S_ : Shape := ⟨0, ![]⟩
abbrev S32x256 : Shape := ⟨2, ![32, 256]⟩
abbrev S32x1x256 : Shape := ⟨3, ![32, 1, 256]⟩
abbrev S1x1x256 : Shape := ⟨3, ![1, 1, 256]⟩
abbrev S32x4096x128 : Shape := ⟨3, ![32, 4096, 128]⟩
abbrev S32x128 : Shape := ⟨2, ![32, 128]⟩
abbrev S32x1x128 : Shape := ⟨3, ![32, 1, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S32x4096x12, .f32⟩
  | .hbm, ⟨1, _⟩ => ⟨S12x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S32x4096x256, .f32⟩
  | .hbm, ⟨6, _⟩ => ⟨S_, .f32⟩
  | .hbm, ⟨7, _⟩ => ⟨S32x256, .f32⟩
  | .hbm, ⟨8, _⟩ => ⟨S32x1x256, .f32⟩
  | .hbm, ⟨9, _⟩ => ⟨S_, .f32⟩
  | .hbm, ⟨10, _⟩ => ⟨S32x1x256, .f32⟩
  | .hbm, ⟨11, _⟩ => ⟨S32x1x256, .f32⟩
  | .hbm, ⟨12, _⟩ => ⟨S32x4096x256, .f32⟩
  | .hbm, ⟨13, _⟩ => ⟨S1x1x256, .f32⟩
  | .hbm, ⟨14, _⟩ => ⟨S32x4096x256, .f32⟩
  | .hbm, ⟨15, _⟩ => ⟨S32x4096x256, .f32⟩
  | .hbm, ⟨16, _⟩ => ⟨S32x4096x128, .f32⟩
  | .hbm, ⟨17, _⟩ => ⟨S_, .f32⟩
  | .hbm, ⟨18, _⟩ => ⟨S32x128, .f32⟩
  | .hbm, ⟨19, _⟩ => ⟨S32x1x128, .f32⟩
  | .hbm, ⟨20, _⟩ => ⟨S_, .f32⟩
  | .hbm, ⟨21, _⟩ => ⟨S32x1x128, .f32⟩
  | .hbm, ⟨22, _⟩ => ⟨S32x1x128, .f32⟩
  | .hbm, ⟨23, _⟩ => ⟨S32x4096x128, .f32⟩
  | .hbm, ⟨24, _⟩ => ⟨S1x1x128, .f32⟩
  | .hbm, ⟨25, _⟩ => ⟨S32x4096x128, .f32⟩
  | .hbm, ⟨26, _⟩ => ⟨S32x4096x128, .f32⟩
  | _, _ => ⟨S32x4096x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S32x4096x256_S32x256_d1 : S32x4096x256.ReducesTo [1] S32x256
  h_S_ : 0 < S_.numel
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x4096x256_0_1_2 : S32x1x256.BroadcastsInDim S32x4096x256 (![0, 1, 2] : Fin 3 → Fin S32x4096x256.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x128_S32x128_d1 : S32x4096x128.ReducesTo [1] S32x128
  bcast_S32x128_S32x1x128_0_2 : S32x128.BroadcastsInDim S32x1x128 (![0, 2] : Fin 2 → Fin S32x1x128.rank)
  bcast_S_S32x1x128 : S_.BroadcastsInDim S32x1x128 (![] : Fin 0 → Fin S32x1x128.rank)
  bcast_S32x1x128_S32x4096x128_0_1_2 : S32x1x128.BroadcastsInDim S32x4096x128 (![0, 1, 2] : Fin 3 → Fin S32x4096x128.rank)
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  dot_S32x4096x12_S12x256_S32x4096x256_2_0_01_1_n_n_wf : DotDims.WF S32x4096x12 S12x256 S32x4096x256 [2] [0] [0, 1] [1] [] []
  dot_S32x4096x256_S256x128_S32x4096x128_2_0_01_1_n_n_wf : DotDims.WF S32x4096x256 S256x128 S32x4096x128 [2] [0] [0, 1] [1] [] []

variable [Facts₀]

def dot_S32x4096x12_S12x256_S32x4096x256_2_0_01_1_n_n : DotDims S32x4096x12 S12x256 S32x4096x256 where
  lhsContracting := [2]
  rhsContracting := [0]
  lhsNonContracting := [0, 1]
  rhsNonContracting := [1]
  lhsBatch := []
  rhsBatch := []
  wf := dot_S32x4096x12_S12x256_S32x4096x256_2_0_01_1_n_n_wf
def dot_S32x4096x256_S256x128_S32x4096x128_2_0_01_1_n_n : DotDims S32x4096x256 S256x128 S32x4096x128 where
  lhsContracting := [2]
  rhsContracting := [0]
  lhsNonContracting := [0, 1]
  rhsNonContracting := [1]
  lhsBatch := []
  rhsBatch := []
  wf := dot_S32x4096x256_S256x128_S32x4096x128_2_0_01_1_n_n_wf

class Facts : Prop extends Facts₀ where

variable [Facts]
-- ==== Proof.MeanLaw.lean ====
/-
  The algebra that joins the two programs, over abstract node, feature, hidden and output index sets.

  A graph-convolution layer on a complete graph with uniform weights sends node features `y n` to
  `(∑ n, y n · W) / N + b`, the same row at every node. Two such layers in sequence are written here in two ways:

  * `meanFirst`: average the node features first, then apply the two affine maps to that single row;
  * `layerwise`: apply each layer to all `N` nodes (transform every node, sum over the nodes, divide by `N`,
    add the bias), the second layer summing `N` copies of one and the same row.

  On real entries the two agree: a finite sum commutes with a product by a fixed matrix (distributivity), and
  the sum of `N` equal terms divided by `N` is the term. Both steps fail at infinities, so the law is stated for
  entries that are real numbers, the divisor the real number `N ≠ 0`.
-/
import Idealize.ShloMosaic.PureOps.Ideal

noncomputable section

namespace Cert.MeanLaw

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

variable {N I H O : ℕ}

/-- Average the nodes first: `(((∑ n, x n) / c) · W1 + b1) · W2 + b2`, at output column `o`. -/
def meanFirst (c : EReal) (x : Fin N → Fin I → EReal) (W1 : Fin I → Fin H → EReal) (b1 : Fin H → EReal)
    (W2 : Fin H → Fin O → EReal) (b2 : Fin O → EReal) (o : Fin O) : EReal :=
  (∑ h : Fin H, ((∑ f : Fin I, Ideal.div (∑ n : Fin N, x n f) c * W1 f h) + b1 h) * W2 h o) + b2 o

/-- Layer by layer over all nodes: the first layer's row is `(∑ n, x n · W1) / c + b1`, the second sums over the
    nodes the product of that one row with `W2`, divides by `c` and adds `b2`. -/
def layerwise (c : EReal) (x : Fin N → Fin I → EReal) (W1 : Fin I → Fin H → EReal) (b1 : Fin H → EReal)
    (W2 : Fin H → Fin O → EReal) (b2 : Fin O → EReal) (o : Fin O) : EReal :=
  Ideal.div (∑ _n : Fin N, ∑ h : Fin H,
    (Ideal.div (∑ n : Fin N, ∑ f : Fin I, x n f * W1 f h) c + b1 h) * W2 h o) c + b2 o

/-- On real entries, with the divisor the number of nodes, the two arrangements are one value. -/
theorem meanFirst_eq_layerwise (hN : N ≠ 0) (x : Fin N → Fin I → ℝ) (W1 : Fin I → Fin H → ℝ) (b1 : Fin H → ℝ)
    (W2 : Fin H → Fin O → ℝ) (b2 : Fin O → ℝ) (o : Fin O) :
    meanFirst ((N : ℝ) : EReal) (fun n f => (x n f : EReal)) (fun f h => (W1 f h : EReal)) (fun h => (b1 h : EReal))
        (fun h o => (W2 h o : EReal)) (fun o => (b2 o : EReal)) o
      = layerwise ((N : ℝ) : EReal) (fun n f => (x n f : EReal)) (fun f h => (W1 f h : EReal)) (fun h => (b1 h : EReal))
        (fun h o => (W2 h o : EReal)) (fun o => (b2 o : EReal)) o := by
  have hN' : (N : ℝ) ≠ 0 := by exact_mod_cast hN
  unfold meanFirst layerwise
  simp only [Ideal.div_coe hN', ← coe_sum, ← EReal.coe_mul, ← EReal.coe_add]
  congr 1
  -- the first layer: the sum over the nodes moves inside the product with W1
  have inner : ∀ h, (∑ n : Fin N, ∑ f : Fin I, x n f * W1 f h) * (1 / (N : ℝ))
      = ∑ f : Fin I, (∑ n : Fin N, x n f) * (1 / (N : ℝ)) * W1 f h := by
    intro h
    rw [Finset.sum_comm, Finset.sum_mul]
    refine Finset.sum_congr rfl fun f _ => ?_
    rw [← Finset.sum_mul]; ring
  simp only [inner]
  -- the second layer: N equal terms, divided by N
  rw [Finset.sum_const, Finset.card_univ, Fintype.card_fin, nsmul_eq_mul, mul_comm (N : ℝ), mul_assoc,
    mul_one_div_cancel hN', mul_one]

end Cert.MeanLaw

end
-- ==== Proof.Spec.lean ====
/-
  The result array written as one function of the five argument arrays, in the two arrangements of
  Proof/MeanLaw.lean, over the literal shapes: features `x : [32, 4096, 12]` (batch, node, feature), weights
  `W1 : [12, 256]`, `W2 : [256, 128]`, biases `b1 : [256]`, `b2 : [128]`, result `[32, 4096, 128]`.
  Entry `(b, n, o)` of the result does not depend on the node `n`: every node of batch `b` receives the same row.
  The divisor is the constant both programs spell, the pattern of `4096.0`, which denotes the real number 4096 —
  the number of nodes. When every argument entry is a real number the two arrangements are the same array.
-/
import proofs.«108775_j60945585930893_1_alg».proof.Proof.MeanLaw
import Idealize.ShloMosaic.Lib.ValueIdx

noncomputable section

namespace Cert.Spec

open Idealize.ShloMosaic Idealize.ShloMosaic.ValueIdx

/-- The pattern `0x45800000` is `4096.0`: it denotes the real number 4096. -/
theorem ofBits_4096 : Ideal.ofBits .f32 0x45800000#32 = ((4096 : ℝ) : EReal) := by
  simp [Ideal.ofBits, Ideal.ieee, -EReal.coe_mul]; norm_num

abbrev X : Shape := ⟨3, ![32, 4096, 12]⟩
abbrev Wa : Shape := ⟨2, ![12, 256]⟩
abbrev Ba : Shape := ⟨1, ![256]⟩
abbrev Wb : Shape := ⟨2, ![256, 128]⟩
abbrev Bb : Shape := ⟨1, ![128]⟩
abbrev Y : Shape := ⟨3, ![32, 4096, 128]⟩

/-- The node mean of batch `i 0` pushed through both affine maps, at output column `i 2`. -/
def viaMean (x : X.Idx → EReal) (W1 : Wa.Idx → EReal) (b1 : Ba.Idx → EReal) (W2 : Wb.Idx → EReal) (b2 : Bb.Idx → EReal) :
    Y.Idx → EReal := fun i =>
  MeanLaw.meanFirst (Ideal.ofBits .f32 0x45800000#32) (fun (n : Fin 4096) (f : Fin 12) => x (ix3 (i 0) n f))
    (fun (f : Fin 12) (h : Fin 256) => W1 (ix2 f h)) (fun h : Fin 256 => b1 (ix1 h))
    (fun (h : Fin 256) (o : Fin 128) => W2 (ix2 h o)) (fun o : Fin 128 => b2 (ix1 o)) (i 2)

/-- The two layers applied node by node to batch `i 0`, at output column `i 2`. -/
def viaLayers (x : X.Idx → EReal) (W1 : Wa.Idx → EReal) (b1 : Ba.Idx → EReal) (W2 : Wb.Idx → EReal) (b2 : Bb.Idx → EReal) :
    Y.Idx → EReal := fun i =>
  MeanLaw.layerwise (Ideal.ofBits .f32 0x45800000#32) (fun (n : Fin 4096) (f : Fin 12) => x (ix3 (i 0) n f))
    (fun (f : Fin 12) (h : Fin 256) => W1 (ix2 f h)) (fun h : Fin 256 => b1 (ix1 h))
    (fun (h : Fin 256) (o : Fin 128) => W2 (ix2 h o)) (fun o : Fin 128 => b2 (ix1 o)) (i 2)

/-- On arguments whose entries are all real numbers the two arrangements are one array. -/
theorem viaMean_eq_viaLayers (x : X.Idx → EReal) (W1 : Wa.Idx → EReal) (b1 : Ba.Idx → EReal) (W2 : Wb.Idx → EReal)
    (b2 : Bb.Idx → EReal) (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal)) (hb2 : ∀ i, ∃ r : ℝ, b2 i = (r : EReal)) :
    viaMean x W1 b1 W2 b2 = viaLayers x W1 b1 W2 b2 := by
  choose xr hxr using hx
  choose w1r hw1r using hW1
  choose b1r hb1r using hb1
  choose w2r hw2r using hW2
  choose b2r hb2r using hb2
  funext i
  have law := MeanLaw.meanFirst_eq_layerwise (N := 4096) (by decide) (fun (n : Fin 4096) (f : Fin 12) => xr (ix3 (i 0) n f))
    (fun (f : Fin 12) (h : Fin 256) => w1r (ix2 f h)) (fun h : Fin 256 => b1r (ix1 h))
    (fun (h : Fin 256) (o : Fin 128) => w2r (ix2 h o)) (fun o : Fin 128 => b2r (ix1 o)) (i 2)
  simp only [Nat.cast_ofNat] at law
  unfold viaMean viaLayers
  simp only [hxr, hw1r, hb1r, hw2r, hb2r, ofBits_4096]
  exact law

end Cert.Spec

end
-- ==== Proof.Finite.lean ====
/-
  What the precondition says. It is the conjunction, over the five argument arrays, of "every entry `x` has
  `|x| < +∞`". On the extended reals `|x| = max x (-x)` is `+∞` exactly at the two infinities, so the precondition
  says that every entry of every argument is a real number — what the distributive law of Proof/MeanLaw.lean needs.
-/
import proofs.«108775_j60945585930893_1_alg».proof.Pre_finite_inputs
import proofs.«108775_j60945585930893_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The pattern `0x7F800000` denotes `+∞`. -/
theorem ofBits_inf : Ideal.ofBits .f32 0x7F800000#32 = ⊤ := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the precondition — "all entries of `x` have absolute value below `+∞`" is true — gives every
    entry of `x` as a real number. -/
theorem entries_real {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant (F := Ideal) S_ .f32 0x7F800000#32)))
      (constantI S_ 1 1#1) hr h0 ix0 = 1#1) (i : s.Idx) : ∃ r : ℝ, x i = (r : EReal) :=
  real_of_abs_lt_inf (x i) (Host.reduce_andi_all _ _ hr h0 ix0 h i)

/-- Under the precondition every entry of each of the five arguments is a real number. -/
theorem reals_of_pre (a0 : FVec Ideal S32x4096x12 .f32) (a1 : FVec Ideal S12x256 .f32) (a2 : FVec Ideal S256 .f32)
    (a3 : FVec Ideal S256x128 .f32) (a4 : FVec Ideal S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ix0
  dsimp only [fn, fn_part1] at h'
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨entries_real a0 _ _ _ h0, entries_real a1 _ _ _ h1, entries_real a2 _ _ _ h2, entries_real a3 _ _ _ h3,
    entries_real a4 _ _ _ h4⟩

end Cert.Finite

end
-- ==== Proof.KernelPayload.lean ====
/-
  What the kernel body stores, read at one entry. For the batch row it is called with, the body takes the column
  sums of its `[1, 4096, 12]` feature block over the 4096 nodes, divides them by `4096.0`, multiplies the resulting
  `[1, 12]` row by `W1` and adds `b1`, multiplies that `[1, 256]` row by `W2` and adds `b2`, and broadcasts the
  `[1, 128]` row down the 4096 rows of its output block. At entry `(0, n, o)` the stored value is therefore
  `MeanLaw.meanFirst` of the loaded blocks at column `o`, whatever the node `n`.
-/
import proofs.«108775_j60945585930893_1_alg».proof.Proof.Gen.KernelIdeal.Skeleton
import proofs.«108775_j60945585930893_1_alg».proof.Proof.MeanLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products at an entry -/

theorem lhs_a_0 (i : S1x256.Idx) (q : dot_S1x12_S12x256_S1x256_1_0_0_1_n_n.contr.Idx) :
    (dot_S1x12_S12x256_S1x256_1_0_0_1_n_n.lhsIdx i q 0).val = (i 0).val := by
  unfold DotDims.lhsIdx
  rw [dif_neg (show ¬(0 : Fin S1x12.rank) ∈ dot_S1x12_S12x256_S1x256_1_0_0_1_n_n.lhsBatch by decide), dif_pos (show (0 : Fin S1x12.rank) ∈ dot_S1x12_S12x256_S1x256_1_0_0_1_n_n.lhsNonContracting by decide)]
  rfl
theorem lhs_a_1 (i : S1x256.Idx) (q : dot_S1x12_S12x256_S1x256_1_0_0_1_n_n.contr.Idx) :
    (dot_S1x12_S12x256_S1x256_1_0_0_1_n_n.lhsIdx i q 1).val = (q ⟨0, by decide⟩).val :=
  dot_S1x12_S12x256_S1x256_1_0_0_1_n_n.lhsIdx_val_of_single rfl i q
theorem rhs_a_0 (i : S1x256.Idx) (q : dot_S1x12_S12x256_S1x256_1_0_0_1_n_n.contr.Idx) :
    (dot_S1x12_S12x256_S1x256_1_0_0_1_n_n.rhsIdx i q 0).val = (q ⟨0, by decide⟩).val :=
  dot_S1x12_S12x256_S1x256_1_0_0_1_n_n.rhsIdx_val_of_single rfl i q
theorem rhs_a_1 (i : S1x256.Idx) (q : dot_S1x12_S12x256_S1x256_1_0_0_1_n_n.contr.Idx) :
    (dot_S1x12_S12x256_S1x256_1_0_0_1_n_n.rhsIdx i q 1).val = (i 1).val := by
  unfold DotDims.rhsIdx
  rw [dif_neg (show ¬(1 : Fin S12x256.rank) ∈ dot_S1x12_S12x256_S1x256_1_0_0_1_n_n.rhsBatch by decide), dif_pos (show (1 : Fin S12x256.rank) ∈ dot_S1x12_S12x256_S1x256_1_0_0_1_n_n.rhsNonContracting by decide)]
  rfl

/-- The first product, a `[1, 12]` row times `[12, 256]` into zero: entry `(u, h)` is `∑ f, l (u, f) · r (f, h)`. -/
theorem matmul_a_apply (l : FVec Ideal S1x12 .f32) (r : FVec Ideal S12x256 .f32) (u : Fin 1) (h : Fin 256) :
    matmul dot_S1x12_S12x256_S1x256_1_0_0_1_n_n none l r (constant S1x256 .f32 0x00000000#32) (ix2 u h)
      = ∑ f : Fin 12, l (ix2 u f) * r (ix2 f h) := by
  show FloatOps.matmul dot_S1x12_S12x256_S1x256_1_0_0_1_n_n none l r (constant S1x256 .f32 0x00000000#32) (ix2 u h) = _
  rw [Ideal.matmul_constant_zero_apply, ← Equiv.sum_comp (contrEquiv1 dot_S1x12_S12x256_S1x256_1_0_0_1_n_n 12 rfl rfl).symm]
  refine Finset.sum_congr rfl fun k _ => ?_
  have hk := contrEquiv1_symm_val dot_S1x12_S12x256_S1x256_1_0_0_1_n_n 12 rfl rfl k
  have el : dot_S1x12_S12x256_S1x256_1_0_0_1_n_n.lhsIdx (ix2 u h) ((contrEquiv1 dot_S1x12_S12x256_S1x256_1_0_0_1_n_n 12 rfl rfl).symm k) = ix2 u k := funext fun a => Fin.ext (by
    match a with
    | ⟨0, _⟩ => exact lhs_a_0 _ _
    | ⟨1, _⟩ => exact (lhs_a_1 _ _).trans hk)
  have er : dot_S1x12_S12x256_S1x256_1_0_0_1_n_n.rhsIdx (ix2 u h) ((contrEquiv1 dot_S1x12_S12x256_S1x256_1_0_0_1_n_n 12 rfl rfl).symm k) = ix2 k h := funext fun a => Fin.ext (by
    match a with
    | ⟨0, _⟩ => exact (rhs_a_0 _ _).trans hk
    | ⟨1, _⟩ => exact rhs_a_1 _ _)
  rw [el, er]

theorem lhs_b_0 (i : S1x128.Idx) (q : dot_S1x256_S256x128_S1x128_1_0_0_1_n_n.contr.Idx) :
    (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
  rfl
theorem lhs_b_1 (i : S1x128.Idx) (q : dot_S1x256_S256x128_S1x128_1_0_0_1_n_n.contr.Idx) :
    (dot_S1x256_S256x128_S1x128_1_0_0_1_n_n.lhsIdx i q 1).val = (q ⟨0, by decide⟩).val :=
  dot_S1x256_S256x128_S1x128_1_0_0_1_n_n.lhsIdx_val_of_single rfl i q
theorem rhs_b_0 (i : S1x128.Idx) (q : dot_S1x256_S256x128_S1x128_1_0_0_1_n_n.contr.Idx) :
    (dot_S1x256_S256x128_S1x128_1_0_0_1_n_n.rhsIdx i q 0).val = (q ⟨0, by decide⟩).val :=
  dot_S1x256_S256x128_S1x128_1_0_0_1_n_n.rhsIdx_val_of_single rfl i q
theorem rhs_b_1 (i : S1x128.Idx) (q : dot_S1x256_S256x128_S1x128_1_0_0_1_n_n.contr.Idx) :
    (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
  rfl

/-- The second product, a `[1, 256]` row times `[256, 128]` into zero: entry `(u, o)` is `∑ h, l (u, h) · r (h, o)`. -/
theorem matmul_b_apply (l : FVec Ideal S1x256 .f32) (r : FVec Ideal S256x128 .f32) (u : Fin 1) (o : Fin 128) :
    matmul dot_S1x256_S256x128_S1x128_1_0_0_1_n_n none l r (constant S1x128 .f32 0x00000000#32) (ix2 u o)
      = ∑ h : Fin 256, l (ix2 u h) * r (ix2 h o) := by
  show FloatOps.matmul dot_S1x256_S256x128_S1x128_1_0_0_1_n_n none l r (constant S1x128 .f32 0x00000000#32) (ix2 u o) = _
  rw [Ideal.matmul_constant_zero_apply, ← Equiv.sum_comp (contrEquiv1 dot_S1x256_S256x128_S1x128_1_0_0_1_n_n 256 rfl rfl).symm]
  refine Finset.sum_congr rfl fun k _ => ?_
  have hk := contrEquiv1_symm_val dot_S1x256_S256x128_S1x128_1_0_0_1_n_n 256 rfl rfl k
  have el : dot_S1x256_S256x128_S1x128_1_0_0_1_n_n.lhsIdx (ix2 u o) ((contrEquiv1 dot_S1x256_S256x128_S1x128_1_0_0_1_n_n 256 rfl rfl).symm k) = ix2 u k := funext fun a => Fin.ext (by
    match a with
    | ⟨0, _⟩ => exact lhs_b_0 _ _
    | ⟨1, _⟩ => exact (lhs_b_1 _ _).trans hk)
  have er : dot_S1x256_S256x128_S1x128_1_0_0_1_n_n.rhsIdx (ix2 u o) ((contrEquiv1 dot_S1x256_S256x128_S1x128_1_0_0_1_n_n 256 rfl rfl).symm k) = ix2 k o := funext fun a => Fin.ext (by
    match a with
    | ⟨0, _⟩ => exact (rhs_b_0 _ _).trans hk
    | ⟨1, _⟩ => exact rhs_b_1 _ _)
  rw [el, er]

/-! ## The sum over the nodes -/

/-- The lane sum of a `[4096, 12]` block over its rows: at feature `f` it is `∑ n, x (n, f)`. -/
theorem nodeSum_apply (x : FVec Ideal S4096x12 .f32) (hacc : (0x00000000#32 : BitVec 32) = 0x00000000#32) (f : Fin 12) :
    multiReduction .add [0] S12 x 0x00000000#32 reduces_S4096x12_S12 (.inl rfl) hacc (ix1 f) = ∑ n : Fin 4096, x (ix2 n f) := by
  refine (Ideal.multiReduction_add_single x 0x00000000#32 reduces_S4096x12_S12 (.inl rfl) hacc (ix1 f)).trans ?_
  exact Finset.sum_congr rfl fun k _ => congrArg x (funext fun a => Fin.ext (by
    match a with
    | ⟨0, _⟩ => rfl
    | ⟨1, _⟩ => rfl))

/-! ## The stored value at an entry -/

/-- Entry `(u, n, o)` of the value the body stores: the mean of the loaded feature block over its nodes, through
    both affine maps, at column `o` — the same for every row `n`. -/
theorem pay_apply (x0 : Vec Ideal S1x4096x12 .f32) (x1 : Vec Ideal S12x256 .f32) (x2 : Vec Ideal S1x256 .f32)
    (x3 : Vec Ideal S256x128 .f32) (x4 : Vec Ideal S1x128 .f32) (u : Fin 1) (n : Fin 4096) (o : Fin 128) :
    k0_pay1 (F := Ideal) x0 x1 x2 x3 x4 (ix3 u n o)
      = MeanLaw.meanFirst (Ideal.ofBits .f32 0x45800000#32) (fun (n : Fin 4096) (f : Fin 12) => x0 (ix3 (0 : Fin 1) n f))
          (fun (f : Fin 12) (h : Fin 256) => x1 (ix2 f h)) (fun h : Fin 256 => x2 (ix2 (0 : Fin 1) h))
          (fun (h : Fin 256) (o : Fin 128) => x3 (ix2 h o)) (fun o : Fin 128 => x4 (ix2 (0 : Fin 1) o)) o := by
  unfold k0_pay1 MeanLaw.meanFirst
  dsimp only
  simp only [shapeCast_self]
  rw [shapeCast_ab_1ab_apply, broadcastTo_1b_ab_apply, addf_apply, matmul_b_apply]
  refine congrArg (· + x4 (ix2 (0 : Fin 1) o)) (Finset.sum_congr rfl fun h _ => ?_)
  rw [addf_apply, matmul_a_apply]
  refine congrArg (fun s => (s + x2 (ix2 (0 : Fin 1) h)) * x3 (ix2 h o)) (Finset.sum_congr rfl fun f _ => ?_)
  rw [divf_apply, shapeCast_a_1a_apply, broadcast_apply]
  refine congrArg (fun s => Ideal.div s _ * x1 (ix2 f h)) ((nodeSum_apply _ _ f).trans (Finset.sum_congr rfl fun k _ => ?_))
  exact shapeCast_1ab_ab_apply x0 _ k f

end Cert.KernelIdeal.Payload

end
-- ==== Proof.KernelValue.lean ====
/-
  The kernel's result array as one function of the argument arrays. The grid has one point per batch row: point `t`
  stages row `t` of the features, `[1, 4096, 12]`, the two weight matrices whole, the two biases as one-row
  matrices (the host reshapes `b1` and `b2` to `[1, 256]` and `[1, 128]` before the call), and writes back block
  `t` of the result, `[1, 4096, 128]`. By Proof/KernelPayload.lean every entry `(0, n, o)` of what point `t` stores
  is the node mean of batch row `t` through both affine maps at column `o`; the 32 blocks tile the result, so the
  array after the run is `Spec.viaMean` of the arguments.
-/
import proofs.«108775_j60945585930893_1_alg».proof.Proof.Gen.KernelIdeal.Value
import proofs.«108775_j60945585930893_1_alg».proof.Proof.KernelPayload
import proofs.«108775_j60945585930893_1_alg».proof.Proof.Spec
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The first bias as the region finds it: `b1` laid out as one row. -/
theorem V_b1 (c : Dev nD) : (V m c main_v0 : S1x256.Idx → EReal)
    = shapeCast S1x256 (m ((c : Thread nD τ).loc main_arg2) : S256.Idx → EReal) shapeCasts_S256_S1x256 := by
  dsimp only [V, hostOps0]; after_results; rfl

/-- The second bias as the region finds it: `b2` laid out as one row. -/
theorem V_b2 (c : Dev nD) : (V m c main_v1 : S1x128.Idx → EReal)
    = shapeCast S1x128 (m ((c : Thread nD τ).loc main_arg4) : S128.Idx → EReal) shapeCasts_S128_S1x128 := by
  dsimp only [V, hostOps0]; after_results; rfl

/-- The block indices over the grid: the feature window and the result window are at block `(t, 0, 0)` at point `t`,
    every other window at block `(0, 0)`. -/
theorem idx_facts : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Each staged block as entries of the arguments -/

/-- The feature block at point `t` is batch row `t`. -/
theorem iblk0_apply (c : Dev nD) (t : Fin cfg0.N) (b : Fin 32) (hb : b.val = t.val) (n : Fin 4096) (f : Fin 12) :
    (iblk m c 0 t : Vec Ideal S1x4096x12 .f32) (ix3 (0 : Fin 1) n f)
      = (m ((c : Thread nD τ).loc main_arg0) : S32x4096x12.Idx → EReal) (ix3 b n f) := by
  obtain ⟨-, -, -, e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 12 + 1 * f.val = f.val; omega

/-- The first weight block is `W1`. -/
theorem iblk1_apply (c : Dev nD) (t : Fin cfg0.N) (f : Fin 12) (h : Fin 256) :
    (iblk m c 1 t : Vec Ideal S12x256 .f32) (ix2 f h)
      = (m ((c : Thread nD τ).loc main_arg1) : S12x256.Idx → EReal) (ix2 f h) := by
  obtain ⟨-, -, -, -, -, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 12 + 1 * f.val = f.val; omega
  | ⟨1, _⟩ => show win0_1.index t (1 : Fin 2) * 256 + 1 * h.val = h.val; omega

/-- The first bias block is `b1` as one row. -/
theorem iblk2_apply (c : Dev nD) (t : Fin cfg0.N) (h : Fin 256) :
    (iblk m c 2 t : Vec Ideal S1x256 .f32) (ix2 (0 : Fin 1) h)
      = (m ((c : Thread nD τ).loc main_arg2) : S256.Idx → EReal) (ix1 h) := by
  obtain ⟨-, -, -, -, -, -, -, -, e0, e1, -⟩ := idx_facts t
  unfold iblk
  rw [View.read_apply]
  show (V m c main_v0 : S1x256.Idx → EReal) _ = m (c.tc.loc main_arg2) _
  rw [V_b1]
  refine Eq.trans (congrArg _ ?_) (shapeCast_a_1a_apply _ shapeCasts_S256_S1x256 (0 : Fin 1) h)
  funext a
  apply Fin.ext
  match a with
  | ⟨0, _⟩ => show win0_2.index t (0 : Fin 2) * 1 + 1 * 0 = 0; omega
  | ⟨1, _⟩ => show win0_2.index t (1 : Fin 2) * 256 + 1 * h.val = h.val; omega

/-- The second weight block is `W2`. -/
theorem iblk3_apply (c : Dev nD) (t : Fin cfg0.N) (h : Fin 256) (o : Fin 128) :
    (iblk m c 3 t : Vec Ideal S256x128 .f32) (ix2 h o)
      = (m ((c : Thread nD τ).loc main_arg3) : S256x128.Idx → EReal) (ix2 h o) := by
  obtain ⟨-, -, -, -, -, -, -, -, -, -, e0, e1, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 256 + 1 * h.val = h.val; omega
  | ⟨1, _⟩ => show win0_3.index t (1 : Fin 2) * 128 + 1 * o.val = o.val; omega

/-- The second bias block is `b2` as one row. -/
theorem iblk4_apply (c : Dev nD) (t : Fin cfg0.N) (o : Fin 128) :
    (iblk m c 4 t : Vec Ideal S1x128 .f32) (ix2 (0 : Fin 1) o)
      = (m ((c : Thread nD τ).loc main_arg4) : S128.Idx → EReal) (ix1 o) := by
  obtain ⟨-, -, -, -, -, -, -, -, -, -, -, -, e0, e1⟩ := idx_facts t
  unfold iblk
  rw [View.read_apply]
  show (V m c main_v1 : S1x128.Idx → EReal) _ = m (c.tc.loc main_arg4) _
  rw [V_b2]
  refine Eq.trans (congrArg _ ?_) (shapeCast_a_1a_apply _ shapeCasts_S128_S1x128 (0 : Fin 1) o)
  funext a
  apply Fin.ext
  match a with
  | ⟨0, _⟩ => show win0_4.index t (0 : Fin 2) * 1 + 1 * 0 = 0; omega
  | ⟨1, _⟩ => show win0_4.index t (1 : Fin 2) * 128 + 1 * o.val = o.val; omega

/-! ## What a point stores is its block of the whole-array function -/

/-- At any entry `j` of the output block and any array index `i` in batch row `b` with `j`'s column: if the loaded
    blocks are batch row `b` of the features and the weights and biases themselves, the stored value at `j` is
    `Spec.viaMean` of the arrays at `i`. -/
theorem point_eq (A0 : S32x4096x12.Idx → EReal) (A1 : S12x256.Idx → EReal) (A2 : S256.Idx → EReal)
    (A3 : S256x128.Idx → EReal) (A4 : S128.Idx → EReal)
    (x0 : Vec Ideal S1x4096x12 .f32) (x1 : Vec Ideal S12x256 .f32) (x2 : Vec Ideal S1x256 .f32)
    (x3 : Vec Ideal S256x128 .f32) (x4 : Vec Ideal S1x128 .f32) (b : Fin 32)
    (h0 : ∀ (n : Fin 4096) (f : Fin 12), x0 (ix3 (0 : Fin 1) n f) = A0 (ix3 b n f))
    (h1 : ∀ (f : Fin 12) (h : Fin 256), x1 (ix2 f h) = A1 (ix2 f h))
    (h2 : ∀ h : Fin 256, x2 (ix2 (0 : Fin 1) h) = A2 (ix1 h))
    (h3 : ∀ (h : Fin 256) (o : Fin 128), x3 (ix2 h o) = A3 (ix2 h o))
    (h4 : ∀ o : Fin 128, x4 (ix2 (0 : Fin 1) o) = A4 (ix1 o))
    (j : S1x4096x128.Idx) (i : S32x4096x128.Idx) (hi0 : (i 0).val = b.val) (hi2 : (i 2).val = (j 2).val) :
    k0_pay1 (F := Ideal) x0 x1 x2 x3 x4 j = Spec.viaMean A0 A1 A2 A3 A4 i := by
  obtain ⟨u, n, o, rfl⟩ : ∃ (u : Fin 1) (n : Fin 4096) (o : Fin 128), j = ix3 u n o := ⟨j 0, j 1, j 2, eq_ix3 j⟩
  obtain ⟨b', n', o', rfl⟩ : ∃ (b' : Fin 32) (n' : Fin 4096) (o' : Fin 128), i = ix3 b' n' o' := ⟨i 0, i 1, i 2, eq_ix3 i⟩
  obtain rfl : b' = b := Fin.ext hi0
  obtain rfl : o' = o := Fin.ext hi2
  rw [Payload.pay_apply]
  unfold Spec.viaMean
  simp only [h0, h1, h2, h3, h4]

/-- WHAT POINT `t` WRITES BACK is block `t` of `Spec.viaMean` of the argument arrays. -/
theorem flushed_eq (c : Dev nD) (t : Fin cfg0.N) :
    (dats m 0 c).flushed 5 t = ((cfg0.win 5).blk t).view.read (Elt Ideal)
      (Spec.viaMean (m ((c : Thread nD τ).loc main_arg0)) (m ((c : Thread nD τ).loc main_arg1)) (m ((c : Thread nD τ).loc main_arg2))
        (m ((c : Thread nD τ).loc main_arg3)) (m ((c : Thread nD τ).loc main_arg4))) := by
  have hN : cfg0.N = 32 := N_0
  rw [flushed5]
  unfold out0_5
  rw [View.canon_unit_zero hz3]
  simp only [View.ld_unit_zero (S := S1x4096x12) hz3, View.ld_unit_zero (S := S12x256) hz2, View.ld_unit_zero (S := S1x256) hz2,
    View.ld_unit_zero (S := S256x128) hz2, View.ld_unit_zero (S := S1x128) hz2]
  obtain ⟨e0, e1, e2, -⟩ := idx_facts t
  funext j
  refine point_eq _ _ _ _ _ _ _ _ _ _ ⟨t.val, by have := t.isLt; omega⟩
    (iblk0_apply m c t ⟨t.val, by have := t.isLt; omega⟩ rfl) (iblk1_apply m c t) (iblk2_apply m c t) (iblk3_apply m c t)
    (iblk4_apply m c t) j (((cfg0.win 5).blk t).view.emb j) ?_ ?_
  · show win0_5.index t (0 : Fin 3) * 1 + 1 * (j 0).val = t.val
    have hj : (j 0).val < 1 := (j 0).isLt
    omega
  · show win0_5.index t (2 : Fin 3) * 128 + 1 * (j 2).val = (j 2).val
    omega

/-! ## The blocks tile the result -/

/-- An index of the result is in point `t`'s block iff each coordinate is in the block's range on its axis. -/
theorem mem_blk (t : Fin cfg0.N) (i : S32x4096x128.Idx) :
    i ∈ ((cfg0.win 5).blk t).view.set ↔ ∀ a : Fin 3, win0_5.index t a * S1x4096x128.size a ≤ (i a).val
      ∧ (i a).val < win0_5.index t a * S1x4096x128.size a + S1x4096x128.size a := by
  show i ∈ ((View.whole main_v2).slice (win0_5.rect t)).set ↔ _
  rw [View.set_slice_whole, Rect.mem_set_unit]
  exact Iff.rfl

/-- Every index `(b, n, o)` of the result is in the block of point `b`, which writes back. -/
theorem cover (i : S32x4096x128.Idx) :
    ∃ t : Fin cfg0.N, (cfg0.win 5).flush t = true ∧ i ∈ ((cfg0.win 5).blk t).view.set := by
  have hN : cfg0.N = 32 := N_0
  have hi0 : (i 0).val < 32 := (i 0).isLt
  have hi1 : (i 1).val < 4096 := (i 1).isLt
  have hi2 : (i 2).val < 128 := (i 2).isLt
  have hlt : (i 0).val < cfg0.N := by omega
  refine ⟨⟨(i 0).val, hlt⟩, flush0_5 _, ?_⟩
  rw [mem_blk]
  have key := idx_facts ⟨(i 0).val, hlt⟩
  have e0 : win0_5.index ⟨(i 0).val, hlt⟩ (0 : Fin 3) = (i 0).val := key.1
  have e1 : win0_5.index ⟨(i 0).val, hlt⟩ (1 : Fin 3) = 0 := key.2.1
  have e2 : win0_5.index ⟨(i 0).val, hlt⟩ (2 : Fin 3) = 0 := key.2.2.1
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e0]; constructor <;> omega
  | ⟨1, _⟩ =>
    show win0_5.index ⟨(i 0).val, _⟩ (1 : Fin 3) * 4096 ≤ (i 1).val ∧ (i 1).val < win0_5.index ⟨(i 0).val, _⟩ (1 : Fin 3) * 4096 + 4096
    rw [e1]; constructor <;> omega
  | ⟨2, _⟩ =>
    show win0_5.index ⟨(i 0).val, _⟩ (2 : Fin 3) * 128 ≤ (i 2).val ∧ (i 2).val < win0_5.index ⟨(i 0).val, _⟩ (2 : Fin 3) * 128 + 128
    rw [e2]; constructor <;> omega

/-- THE RESULT ARRAY after the run is `Spec.viaMean` of the argument arrays. -/
theorem final (c : Dev nD) : (dats m 0 c).arrAt 5 cfg0.N
    = Spec.viaMean (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The kernel's run: the result array at `Spec.viaMean` of the arguments, the arguments unchanged. -/
theorem run : θ_run defs (onTc (τ := τ) (main (F := Ideal))) ⟨m, fun _ => 0, ρ⟩ fun r => ∀ c : Dev nD,
      r.2.mem ((c : Thread nD τ).loc main_v2)
        = Spec.viaMean (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference's result array, read entry by entry. The reference applies the layer twice, each time to all
  4096 nodes of every batch: a product with the weight matrix at every node, the sum of the products over the
  nodes, the quotient by `4096.0`, broadcast back to every node, plus the bias. Entry `(b, n, o)` of its
  result is therefore `MeanLaw.layerwise` of batch `b` at column `o`: the array `Spec.viaLayers`.
-/
import proofs.«108775_j60945585930893_1_alg».proof.Proof.Gen.ReferenceIdeal.Read
import proofs.«108775_j60945585930893_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The first layer's output at `(b, n, h)`: the sum over the nodes of batch `b` of the products with column `h`
    of `W1`, divided by `4096.0`, plus `b1 h` — the same for every node `n`. -/
theorem layer1_apply (x0 : S32x4096x12.Idx → EReal) (x1 : S12x256.Idx → EReal) (x2 : S256.Idx → EReal)
    (b : Fin 32) (n : Fin 4096) (h : Fin 256) :
    val_main_v8 (F := Ideal) x0 x1 x2 (ix3 b n h)
      = Ideal.div (∑ n' : Fin 4096, ∑ f : Fin 12, x0 (ix3 b n' f) * x1 (ix2 f h)) (Ideal.ofBits .f32 0x45800000#32)
        + x2 (ix1 h) := by
  rw [val_main_v8_apply, val_main_v5_apply, val_main_v4_apply, val_main_v2_apply, val_main_v1_apply, val_main_v3_apply,
    val_main_cst_0_apply, val_main_cst_apply, val_main_v7_apply, val_main_v6_apply]
  simp only [val_main_v0_apply]
  have e0 : ∀ (k : Fin 4096) (k' : Fin 12),
      lidx_main_v0 (idx_main_v1 (idx_main_v2 (idx_main_v5 (ix3 b n h))) k) k' = ix3 b k k' := fun k k' =>
    funext fun a => Fin.ext (by
      match a with
      | ⟨0, _⟩ => rfl
      | ⟨1, _⟩ => rfl
      | ⟨2, _⟩ => rfl)
  have e1 : ∀ (k : Fin 4096) (k' : Fin 12),
      ridx_main_v0 (idx_main_v1 (idx_main_v2 (idx_main_v5 (ix3 b n h))) k) k' = ix2 k' h := fun k k' =>
    funext fun a => Fin.ext (by
      match a with
      | ⟨0, _⟩ => rfl
      | ⟨1, _⟩ => rfl)
  have e2 : idx_main_v6 (idx_main_v7 (ix3 b n h)) = ix1 h :=
    funext fun a => Fin.ext (by
      match a with
      | ⟨0, _⟩ => rfl)
  simp only [e0, e1, e2]
  show Ideal.div (Ideal.ofBits .f32 0x00000000#32 + _) _ + _ = _
  rw [Ideal.ofBits_zero_f32, zero_add]
  rfl

/-- The result at `(b, n, o)` from the first layer's output: the sum over the nodes of the products of the first
    layer's rows with column `o` of `W2`, divided by `4096.0`, plus `b2 o`. -/
theorem layer2_apply (x0 : S32x4096x12.Idx → EReal) (x1 : S12x256.Idx → EReal) (x2 : S256.Idx → EReal)
    (x3 : S256x128.Idx → EReal) (x4 : S128.Idx → EReal) (b : Fin 32) (n : Fin 4096) (o : Fin 128) :
    val_main_v17 (F := Ideal) x0 x1 x2 x3 x4 (ix3 b n o)
      = Ideal.div (∑ n' : Fin 4096, ∑ h : Fin 256, val_main_v8 (F := Ideal) x0 x1 x2 (ix3 b n' h) * x3 (ix2 h o))
          (Ideal.ofBits .f32 0x45800000#32)
        + x4 (ix1 o) := by
  rw [val_main_v17_apply, val_main_v14_apply, val_main_v13_apply, val_main_v11_apply, val_main_v10_apply,
    val_main_v12_apply, val_main_cst_2_apply, val_main_cst_1_apply, val_main_v16_apply, val_main_v15_apply]
  simp only [val_main_v9_apply]
  have e0 : ∀ (k : Fin 4096) (k' : Fin 256),
      lidx_main_v9 (idx_main_v10 (idx_main_v11 (idx_main_v14 (ix3 b n o))) k) k' = ix3 b k k' := fun k k' =>
    funext fun a => Fin.ext (by
      match a with
      | ⟨0, _⟩ => rfl
      | ⟨1, _⟩ => rfl
      | ⟨2, _⟩ => rfl)
  have e1 : ∀ (k : Fin 4096) (k' : Fin 256),
      ridx_main_v9 (idx_main_v10 (idx_main_v11 (idx_main_v14 (ix3 b n o))) k) k' = ix2 k' o := fun k k' =>
    funext fun a => Fin.ext (by
      match a with
      | ⟨0, _⟩ => rfl
      | ⟨1, _⟩ => rfl)
  have e2 : idx_main_v15 (idx_main_v16 (ix3 b n o)) = ix1 o :=
    funext fun a => Fin.ext (by
      match a with
      | ⟨0, _⟩ => rfl)
  simp only [e0, e1, e2]
  show Ideal.div (Ideal.ofBits .f32 0x00000000#32 + _) _ + _ = _
  rw [Ideal.ofBits_zero_f32, zero_add]
  rfl

/-- The reference's result array is the layer-by-layer arrangement of its arguments. -/
theorem result_eq (x0 : S32x4096x12.Idx → EReal) (x1 : S12x256.Idx → EReal) (x2 : S256.Idx → EReal)
    (x3 : S256x128.Idx → EReal) (x4 : S128.Idx → EReal) :
    val_main_v17 (F := Ideal) x0 x1 x2 x3 x4 = Spec.viaLayers x0 x1 x2 x3 x4 := by
  funext i
  obtain ⟨b, n, o, rfl⟩ : ∃ (b : Fin 32) (n : Fin 4096) (o : Fin 128), i = ix3 b n o := ⟨i 0, i 1, i 2, eq_ix3 i⟩
  rw [layer2_apply]
  simp only [layer1_apply]
  rfl

end Cert.ReferenceIdeal.RefValue

end
-- ==== Proof.lean ====
/-
  A two-layer graph convolution on a complete graph with uniform edge weights: each layer sends node features
  `y` to `mean_n (y · W) + b`, the same row at every node. The kernel averages the 4096 node features of a batch row
  first and pushes the single mean row through both affine maps; the reference applies each layer to all nodes
  (product at every node, sum over the nodes, quotient by 4096, bias), the second layer averaging 4096 copies of one
  row. Both divide by the same constant `4096.0`. Over the extended reals the two agree wherever every argument
  entry is a real number — which is what the precondition says (Proof/Finite.lean) — by distributivity and by
  `(4096 · s) / 4096 = s` (Proof/MeanLaw.lean, Proof/Spec.lean).

  The kernel's result array is read off its generated blockwise value leg: each grid point writes block `t` of one
  whole-array function (Proof/KernelPayload.lean, Proof/KernelValue.lean). The reference's result is read off its
  generated run one operation at a time (Proof/RefValue.lean). The three frames are the generated ones; the ideal
  pass rewrote nothing, so `preserves` is `True`.
-/
import proofs.«108775_j60945585930893_1_alg».proof.Defs
import proofs.«108775_j60945585930893_1_alg».proof.Proof.Gen.Kernel
import proofs.«108775_j60945585930893_1_alg».proof.Proof.Gen.Kernel.Skeleton
import proofs.«108775_j60945585930893_1_alg».proof.Proof.Gen.Kernel.Launch
import proofs.«108775_j60945585930893_1_alg».proof.Proof.Gen.Kernel.Points
import proofs.«108775_j60945585930893_1_alg».proof.Proof.Gen.Kernel.Frame
import proofs.«108775_j60945585930893_1_alg».proof.Proof.Gen.KernelIdeal
import proofs.«108775_j60945585930893_1_alg».proof.Proof.Gen.KernelIdeal.Skeleton
import proofs.«108775_j60945585930893_1_alg».proof.Proof.Gen.KernelIdeal.Launch
import proofs.«108775_j60945585930893_1_alg».proof.Proof.Gen.KernelIdeal.Points
import proofs.«108775_j60945585930893_1_alg».proof.Proof.Gen.KernelIdeal.Frame
import proofs.«108775_j60945585930893_1_alg».proof.Proof.Gen.ReferenceIdeal
import proofs.«108775_j60945585930893_1_alg».proof.Proof.Gen.Pre_finite_inputs
import proofs.«108775_j60945585930893_1_alg».proof.Proof.Gen.KernelIdeal.Value
import proofs.«108775_j60945585930893_1_alg».proof.Proof.Gen.ReferenceIdeal.Run
import proofs.«108775_j60945585930893_1_alg».proof.Proof.Gen.ReferenceIdeal.Read
import proofs.«108775_j60945585930893_1_alg».proof.Proof.Spec
import proofs.«108775_j60945585930893_1_alg».proof.Proof.Finite
import proofs.«108775_j60945585930893_1_alg».proof.Proof.KernelValue
import proofs.«108775_j60945585930893_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, all of whose entries are real numbers, the kernel's result array is
    the node mean pushed through both affine maps, the reference's the two layers applied node by node: one array. -/
theorem algebraic : Cert.algebraic_KernelIdeal_ReferenceIdeal := by
  intro m ρ m' ρ' hpre hagree
  refine ⟨fun c => Cert.Spec.viaMean (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.Finite.reals_of_pre _ _ _ _ _ (hpre c)
  rw [Cert.ReferenceIdeal.Read.val_main_v17_eq, Cert.ReferenceIdeal.RefValue.result_eq, (hagree c).1, (hagree c).2.1,
    (hagree c).2.2.1, (hagree c).2.2.2.1, (hagree c).2.2.2.2]
  exact (Cert.Spec.viaMean_eq_viaLayers _ _ _ _ _ r0 r1 r2 r3 r4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
